-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096x2 : Shape := ⟨3, ![32, 4096, 2]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096x2 : S_.BroadcastsInDim S32x4096x2 (![] : Fin 0 → Fin S32x4096x2.rank)
  reducesTo_S32x4096x2_S_d0_1_2 : S32x4096x2.ReducesTo [0, 1, 2] S_

variable [Facts]

def fn {F : FTy → Type} [FloatOps F] (main_arg0 : FVec F S4x2048x4096 .f32) (main_arg1 : IVec S4096x4096 32) (main_arg2 : FVec F S32x4096x2 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096x2 .f32 := Host.absf main_arg2
  let main_cst_0 : FVec F S_ .f32 := constant S_ .f32 0x7F800000#32
  let main_v5 : FVec F S32x4096x2 .f32 := broadcastInDim S32x4096x2 ![] bcast_S_S32x4096x2 main_cst_0
  let main_v6 : IVec S32x4096x2 1 := cmpf .olt main_v4 main_v5
  let main_c_1 : IVec S_ 1 := constantI S_ 1 1#1
  let main_v7 : IVec S_ 1 := (fun x v => Host.reduce IntOp.andi x v reducesTo_S32x4096x2_S_d0_1_2 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S32x4096x2 : Shape := ⟨3, ![32, 4096, 2]⟩
abbrev S8192x4096 : Shape := ⟨2, ![8192, 4096]⟩
abbrev S32x4096x1 : Shape := ⟨3, ![32, 4096, 1]⟩
abbrev S32x4096 : Shape := ⟨2, ![32, 4096]⟩
abbrev S1024x1024 : Shape := ⟨2, ![1024, 1024]⟩
abbrev S8x1024 : Shape := ⟨2, ![8, 1024]⟩
abbrev S8x128x1024 : Shape := ⟨3, ![8, 128, 1024]⟩
abbrev S8x1x1024 : Shape := ⟨3, ![8, 1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096x2, .f32⟩
  | .hbm, ⟨3, _⟩ => ⟨S8192x4096, .f32⟩
  | .hbm, ⟨4, _⟩ => ⟨S8192x4096, .bf16⟩
  | .hbm, ⟨5, _⟩ => ⟨S4096x4096, .i32⟩
  | .hbm, ⟨6, _⟩ => ⟨S32x4096x1, .f32⟩
  | .hbm, ⟨7, _⟩ => ⟨S32x4096, .f32⟩
  | .hbm, ⟨8, _⟩ => ⟨S32x4096x1, .f32⟩
  | .hbm, ⟨9, _⟩ => ⟨S32x4096, .f32⟩
  | .hbm, ⟨10, _⟩ => ⟨S8192x4096, .f32⟩
  | .hbm, ⟨11, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .i32⟩
  | .local _ .vmem, ⟨3, _⟩ => ⟨S1024x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x4096.size a
  hwx0_3 : ∀ i : grid0.Coords, EltTy.bits .f32 = 32 ∨ (Rect.block (s := S32x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096x2 : Shape := ⟨3, ![32, 4096, 2]⟩
abbrev S8192x4096 : Shape := ⟨2, ![8192, 4096]⟩
abbrev S32x4096x1 : Shape := ⟨3, ![32, 4096, 1]⟩
abbrev S32x4096 : Shape := ⟨2, ![32, 4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096x2, .f32⟩
  | .hbm, ⟨3, _⟩ => ⟨S8192x4096, .f32⟩
  | .hbm, ⟨4, _⟩ => ⟨S32x4096x1, .f32⟩
  | .hbm, ⟨5, _⟩ => ⟨S32x4096, .f32⟩
  | .hbm, ⟨6, _⟩ => ⟨S32x4096x1, .f32⟩
  | .hbm, ⟨7, _⟩ => ⟨S32x4096, .f32⟩
  | .hbm, ⟨8, _⟩ => ⟨S4096x32x128, .i32⟩
  | .hbm, ⟨9, _⟩ => ⟨S4096x32x128, .f32⟩
  | .hbm, ⟨10, _⟩ => ⟨S_, .f32⟩
  | .hbm, ⟨11, _⟩ => ⟨S4096x32x128, .f32⟩
  | .hbm, ⟨12, _⟩ => ⟨S4096x32x128, .f32⟩
  | .hbm, ⟨13, _⟩ => ⟨S4096x32, .f32⟩
  | .hbm, ⟨14, _⟩ => ⟨S4096x32x1, .f32⟩
  | .hbm, ⟨15, _⟩ => ⟨S4096x32x128, .f32⟩
  | .hbm, ⟨16, _⟩ => ⟨S4096x32x128, .f32⟩
  | .hbm, ⟨17, _⟩ => ⟨S4096x32, .f32⟩
  | .hbm, ⟨18, _⟩ => ⟨S4096x32x1, .f32⟩
  | .hbm, ⟨19, _⟩ => ⟨S4096x32x128, .f32⟩
  | .hbm, ⟨20, _⟩ => ⟨S4096x32x128, .f32⟩
  | .hbm, ⟨21, _⟩ => ⟨S4096x4096, .f32⟩
  | .hbm, ⟨22, _⟩ => ⟨S4096x4096, .f32⟩
  | .hbm, ⟨23, _⟩ => ⟨S8192x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  shapeCasts_S4096x4096_S4096x32x128 : S4096x4096.ShapeCasts S4096x32x128
  bcast_S_S4096x32x128 : S_.BroadcastsInDim S4096x32x128 (![] : Fin 0 → Fin S4096x32x128.rank)
  transposes_S32x4096_S4096x32_1_0 : S32x4096.Transposes [1, 0] S4096x32
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, stated once over the argument arrays, and the one law of sums the
  kernel's tiling needs.

  With `X` the activations flattened to 8192 rows of 4096, `q` the 4096 x 4096 integer weights (row = output
  feature, column = input feature) and `sz` the per-group scale (last coordinate 0) and zero point (last
  coordinate 1), one group per 128 consecutive input features, the dequantized weight at input feature `k` and
  output feature `o` is `(q[o, k] - 8) * sz[k / 128, o, 0] + sz[k / 128, o, 1]`, and the result at row `r`,
  output feature `o` is the sum over all 4096 input features of `X[r, k]` times that weight.

  The kernel walks the input features in four blocks of 1024; a sum over 4096 consecutive naturals is the sum
  over the four blocks of the sums inside each (`sum_blocks`): addition of extended reals is commutative and
  associative, so no finiteness is needed.
-/
import Idealize.ShloMosaic.PureOps.Ideal
import Idealize.ShloMosaic.Lib.ValueIdx
import Mathlib.Algebra.BigOperators.Intervals
import Mathlib.Algebra.BigOperators.Fin

noncomputable section

namespace Cert.Dequant

open Idealize.ShloMosaic Idealize.ShloMosaic.ValueIdx

/-- The group of 128 input features that feature `k` lies in. -/
def grp (k : Fin 4096) : Fin 32 := ⟨k.val / 128, by have := k.isLt; omega⟩

/-- The dequantized weight at input feature `k`, output feature `o`. -/
def deq (q : (⟨2, ![4096, 4096]⟩ : Shape).Idx → BitVec 32) (sz : (⟨3, ![32, 4096, 2]⟩ : Shape).Idx → EReal)
    (k o : Fin 4096) : EReal :=
  (FloatOps.sitofp (F := Ideal) .f32 (q (ix2 o k)) - Ideal.ofBits .f32 0x41000000#32) * sz (ix3 (grp k) o (0 : Fin 2))
    + sz (ix3 (grp k) o (1 : Fin 2))

/-- The product of the flattened activations with the dequantized weights. -/
def prod (X : (⟨2, ![8192, 4096]⟩ : Shape).Idx → EReal) (q : (⟨2, ![4096, 4096]⟩ : Shape).Idx → BitVec 32)
    (sz : (⟨3, ![32, 4096, 2]⟩ : Shape).Idx → EReal) : (⟨2, ![8192, 4096]⟩ : Shape).Idx → EReal :=
  fun j => ∑ k : Fin 4096, X (ix2 (j 0) k) * deq q sz k (j 1)

/-- A sum over `B * n` consecutive naturals is the sum over `B` blocks of the `n` inside each. -/
theorem sum_range_blocks {M : Type*} [AddCommMonoid M] (f : ℕ → M) (n : ℕ) :
    ∀ B : ℕ, ∑ b ∈ Finset.range B, ∑ kk ∈ Finset.range n, f (b * n + kk) = ∑ k ∈ Finset.range (B * n), f k
  | 0 => by simp
  | B + 1 => by
    rw [Finset.sum_range_succ, sum_range_blocks f n B, Nat.succ_mul, Finset.sum_range_add]

/-- The same with the inner and the whole index in `Fin`. -/
theorem sum_blocks {M : Type*} [AddCommMonoid M] (f : ℕ → M) :
    ∑ b ∈ Finset.range 4, ∑ kk : Fin 1024, f (b * 1024 + kk.val) = ∑ k : Fin 4096, f k.val := by
  rw [Fin.sum_univ_eq_sum_range (fun k => f k) 4096, ← sum_range_blocks f 1024 4]
  exact Finset.sum_congr rfl fun b _ => Fin.sum_univ_eq_sum_range (fun kk => f (b * 1024 + kk)) 1024

end Cert.Dequant

end
-- ==== Proof.Pieces.lean ====
/-
  What one run of the kernel body leaves in the output's staging buffer, in each of its two control cases, as the
  body's own arithmetic (the skeleton's payloads) of the blocks it loaded.

  When the reduction coordinate is not the first (case B) the body stores once: the update, computed from the
  four input blocks and from what the buffer held. When it is the first (case A) the body first stores the zero
  block, reads it back, and then stores the same update computed over that zero block. In both cases the last
  store covers the whole buffer, so the buffer ends at that store's value.
-/
import proofs.«171951_j1726576857544_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- Not the first reduction step: the buffer holding `xo` ends at the update over `xo`. -/
theorem out_B (c : Dev nD) (i : grid0.Coords) (a3 : Memref sig .tc .vmem S1024x1024 .bf16) (h3 : a3.IsWhole)
    (a4 : Memref sig .tc .vmem S1024x1024 .i32) (h4 : a4.IsWhole) (a5 : Memref sig .tc .vmem S8x1024 .f32) (h5 : a5.IsWhole)
    (a6 : Memref sig .tc .vmem S8x1024 .f32) (h6 : a6.IsWhole) (a7 : Memref sig .tc .vmem S1024x1024 .f32) (h7 : a7.IsWhole)
    (hc : ¬cond0_0 i) (x0 : Vec F S1024x1024 .bf16) (x1 : Vec F S1024x1024 .i32) (x2 : Vec F S8x1024 .f32)
    (x3 : Vec F S8x1024 .f32) (xo : Vec F S1024x1024 .f32) :
    out0_B_4 c i a3 h3 a4 h4 a5 h5 a6 h6 a7 h7 hc x0 x1 x2 x3 xo = k0_pay2 x1 x2 x3 x0 xo := by
  unfold out0_B_4
  rw [View.read_writes_eq_canon _ _ _ (cover0_B_4 c i a3 h3 a4 h4 a5 h5 a6 h6 a7 h7 hc x0 x1 x2 x3 xo)]
  unfold kernelRun0_B
  dsimp only
  sl_unfold_words
  rw [View.canon_unit_zero hz]
  simp only [View.readAt_eq_ld, h3.read_unread, h4.read_unread, h5.read_unread, h6.read_unread, h7.read_unread,
    View.ld_unit_zero (S := S1024x1024) hz, View.ld_unit_zero (S := S8x1024) hz]

/-- The first reduction step: the buffer ends at the update over the zero block. -/
theorem out_A (c : Dev nD) (i : grid0.Coords) (a3 : Memref sig .tc .vmem S1024x1024 .bf16) (h3 : a3.IsWhole)
    (a4 : Memref sig .tc .vmem S1024x1024 .i32) (h4 : a4.IsWhole) (a5 : Memref sig .tc .vmem S8x1024 .f32) (h5 : a5.IsWhole)
    (a6 : Memref sig .tc .vmem S8x1024 .f32) (h6 : a6.IsWhole) (a7 : Memref sig .tc .vmem S1024x1024 .f32) (h7 : a7.IsWhole)
    (hc : cond0_0 i) (x0 : Vec F S1024x1024 .bf16) (x1 : Vec F S1024x1024 .i32) (x2 : Vec F S8x1024 .f32)
    (x3 : Vec F S8x1024 .f32) :
    out0_A_4 c i a3 h3 a4 h4 a5 h5 a6 h6 a7 h7 hc x0 x1 x2 x3 = k0_pay2 x1 x2 x3 x0 (k0_pay1 (F := F)) := by
  unfold out0_A_4
  rw [View.read_writes_eq_canon _ _ _ (cover0_A_4 c i a3 h3 a4 h4 a5 h5 a6 h6 a7 h7 hc x0 x1 x2 x3)]
  unfold kernelRun0_A
  dsimp only
  sl_unfold_words
  rw [View.canon_cons_unit_zero (S := S1024x1024) hz]
  simp only [View.readAt_eq_ld, h3.read_unread, h4.read_unread, h5.read_unread, h6.read_unread,
    View.readCov_unit_zero (S := S1024x1024) _ hz,
    View.ld_unit_zero (S := S1024x1024) hz, View.ld_unit_zero (S := S8x1024) hz]

end Cert.KernelIdeal.Acc

end
-- ==== Proof.Payload.lean ====
/-
  The body's arithmetic read at one index, over the extended reals.

  The body reshapes its 1024 x 1024 block of integer weights to 8 groups of 128 rows, converts it, subtracts 8,
  multiplies each group by that group's row of scales and adds that group's row of zero points (each row
  broadcast over the group's 128 rows), reshapes back, and multiplies the activation block by the result on the
  matrix unit into a zero accumulator; the update is the previous contents plus that product.

  Row `kk` of the block lies in group `kk / 128` at lane `kk % 128`, so the dequantized entry at (kk, q) is
  `(w[kk, q] - 8) * scale[kk / 128, q] + zero[kk / 128, q]`, and the update at (p, q) is the previous entry plus
  the sum over `kk` of `x[p, kk]` times that.
-/
import proofs.«171951_j1726576857544_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]

/-- The group of a block row, and its lane inside the group. -/
def rgrp (kk : Fin 1024) : Fin 8 := ⟨kk.val / 128, by have := kk.isLt; omega⟩
def rlane (kk : Fin 1024) : Fin 128 := ⟨kk.val % 128, Nat.mod_lt _ (by decide)⟩

/-- The dequantized weight block as the body builds it from the weight, scale and zero-point blocks. -/
def wdeq (v3 : Vec F S1024x1024 .i32) (v9 v11 : Vec F S8x1024 .f32) : FVec F S1024x1024 .bf16 :=
  truncf .bf16 (shapeCast S1024x1024
    (addf (mulf (subf (sitofp .f32 (shapeCast S8x128x1024 v3 shapeCasts_S1024x1024_S8x128x1024))
          (broadcast S8x128x1024 (Scalar.ofBits .f32 0x41000000#32)))
        (broadcastTo S8x128x1024 (shapeCast S8x1x1024 v9 shapeCasts_S8x1024_S8x1x1024) broadcasts_S8x1x1024_S8x128x1024))
      (broadcastTo S8x128x1024 (shapeCast S8x1x1024 v11 shapeCasts_S8x1024_S8x1x1024) broadcasts_S8x1x1024_S8x128x1024))
    shapeCasts_S8x128x1024_S1024x1024) bitsLt_bf16_f32

/-- The update is the previous contents plus the activation block times the dequantized block. -/
theorem pay2_eq (v3 : Vec F S1024x1024 .i32) (v9 v11 : Vec F S8x1024 .f32) (v21 : Vec F S1024x1024 .bf16)
    (v24 : Vec F S1024x1024 .f32) :
    k0_pay2 v3 v9 v11 v21 v24
      = addf v24 (matmul dot_S1024x1024_S1024x1024_S1024x1024_1_0_0_1_n_n none v21 (wdeq v3 v9 v11) (constant S1024x1024 .f32 0x00000000#32)) := by
  unfold k0_pay2 wdeq
  simp only [shapeCast_self]

/-! ## The layout steps at an index -/

section Layout
variable {α : Type}

/-- Rows split into groups: entry (g, s, q) of the regrouped block is entry (128 g + s, q). -/
theorem regroup_apply (v : S1024x1024.Idx → α) (h : S1024x1024.ShapeCasts S8x128x1024) (kk q : Fin 1024) :
    shapeCast S8x128x1024 v h (ix3 (rgrp kk) (rlane kk) q) = v (ix2 kk q) :=
  shapeCast_apply v h _ _ (by
    rw [Shape.rowMajor_val_two, Shape.rowMajor_val_three]
    show kk.val * 1024 + q.val = (kk.val / 128 * 128 + kk.val % 128) * 1024 + q.val
    have := kk.isLt; omega)

/-- Groups merged back into rows: entry (kk, q) is entry (kk / 128, kk % 128, q). -/
theorem merge_apply (v : S8x128x1024.Idx → α) (h : S8x128x1024.ShapeCasts S1024x1024) (kk q : Fin 1024) :
    shapeCast S1024x1024 v h (ix2 kk q) = v (ix3 (rgrp kk) (rlane kk) q) :=
  shapeCast_apply v h _ _ (by
    rw [Shape.rowMajor_val_two, Shape.rowMajor_val_three]
    show (kk.val / 128 * 128 + kk.val % 128) * 1024 + q.val = kk.val * 1024 + q.val
    have := kk.isLt; omega)

/-- A per-group row broadcast over the group's rows: entry (g, s, q) is entry (g, q) of the rows. -/
theorem grouprow_apply (v : S8x1024.Idx → α) (h1 : S8x1024.ShapeCasts S8x1x1024) (h2 : S8x1x1024.Broadcasts S8x128x1024)
    (g : Fin 8) (s : Fin 128) (q : Fin 1024) :
    broadcastTo S8x128x1024 (shapeCast S8x1x1024 v h1) h2 (ix3 g s q) = v (ix2 g q) := by
  refine (broadcastTo_apply _ h2 (ix3 g s q) (ix3 g (0 : Fin 1) q) (fun a => ?_)).trans ?_
  · match a with
    | ⟨0, _⟩ => rfl
    | ⟨1, _⟩ => rfl
    | ⟨2, _⟩ => rfl
  · exact shapeCast_apply v h1 _ _ (by
      rw [Shape.rowMajor_val_two, Shape.rowMajor_val_three]
      show g.val * 1024 + q.val = (g.val * 1 + 0) * 1024 + q.val
      omega)

end Layout

/-- The dequantized block at (kk, q). -/
theorem wdeq_apply (v3 : Vec Ideal S1024x1024 .i32) (v9 v11 : Vec Ideal S8x1024 .f32) (kk q : Fin 1024) :
    wdeq (F := Ideal) v3 v9 v11 (ix2 kk q)
      = (FloatOps.sitofp (F := Ideal) .f32 (v3 (ix2 kk q)) - Ideal.ofBits .f32 0x41000000#32) * v9 (ix2 (rgrp kk) q)
        + v11 (ix2 (rgrp kk) q) := by
  unfold wdeq
  rw [truncf_apply, merge_apply, addf_apply, mulf_apply, subf_apply, sitofp_apply, regroup_apply, grouprow_apply,
    grouprow_apply]
  rfl

/-! ## The matrix product at an index -/

theorem lhs_ax0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_ax1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_ax0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_ax1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator at (p, q): the sum over the block's rows. -/
theorem matmul_apply (l : FVec Ideal S1024x1024 .bf16) (r : FVec Ideal S1024x1024 .bf16) (p q : Fin 1024) :
    matmul dot_S1024x1024_S1024x1024_S1024x1024_1_0_0_1_n_n none l r (constant S1024x1024 .f32 0x00000000#32) (ix2 p q)
      = ∑ kk : Fin 1024, l (ix2 p kk) * r (ix2 kk q) := by
  show FloatOps.matmul dot_S1024x1024_S1024x1024_S1024x1024_1_0_0_1_n_n none l r (constant S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_ax0 _ _).trans hk
    | ⟨1, _⟩ => exact rhs_ax1 _ _)
  rw [el, er]

/-- The update at (p, q). -/
theorem pay2_apply (v3 : Vec Ideal S1024x1024 .i32) (v9 v11 : Vec Ideal S8x1024 .f32) (v21 : Vec Ideal S1024x1024 .bf16)
    (v24 : Vec Ideal S1024x1024 .f32) (p q : Fin 1024) :
    k0_pay2 (F := Ideal) v3 v9 v11 v21 v24 (ix2 p q)
      = v24 (ix2 p q) + ∑ kk : Fin 1024, v21 (ix2 p kk)
          * ((FloatOps.sitofp (F := Ideal) .f32 (v3 (ix2 kk q)) - Ideal.ofBits .f32 0x41000000#32) * v9 (ix2 (rgrp kk) q)
            + v11 (ix2 (rgrp kk) q)) := by
  rw [pay2_eq, addf_apply, matmul_apply]
  exact congrArg (v24 (ix2 p q) + ·) (Finset.sum_congr rfl fun kk _ => by rw [wdeq_apply])

/-- The zero block at any index. -/
theorem pay1_apply (j : S1024x1024.Idx) : k0_pay1 (F := Ideal) j = 0 := by
  show Ideal.ofBits .f32 0x00000000#32 = 0
  exact Ideal.ofBits_zero_f32

end Cert.KernelIdeal.Acc

end
-- ==== Proof.Blocks.lean ====
/-
  What the kernel's region finds in its four input arrays, and the block of each that a grid point stages.

  Before the region the program flattens the activations to 8192 rows and narrows them (the identity on
  extended reals), transposes the integer weights so that rows are input features, and splits the scale and the
  zero point out of the last axis of the third argument. So, with `X` the flattened activations, the region
  finds `X[r, k]`, `q[o, k]` at (k, o), `sz[g, o, 0]` at (g, o) and `sz[g, o, 1]` at (g, o).

  Grid point `t` has coordinates (t / 16, t / 4 % 4, t % 4) = (row block i, column block j, reduction block k).
  Its activation block is rows 1024 i .., columns 1024 k ..; its weight block rows 1024 k .., columns 1024 j ..;
  its scale and zero-point blocks rows 8 k .., columns 1024 j ...
-/
import proofs.«171951_j1726576857544_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-! ## The arguments and the arrays the region finds, at their literal types -/

abbrev arg0 (c : Dev nD) : Vec Ideal S4x2048x4096 .f32 := m ((c : Thread nD τ).loc main_arg0)
abbrev arg1 (c : Dev nD) : Vec Ideal S4096x4096 .i32 := m ((c : Thread nD τ).loc main_arg1)
abbrev arg2 (c : Dev nD) : Vec Ideal S32x4096x2 .f32 := m ((c : Thread nD τ).loc main_arg2)

/-- The activations flattened to 8192 rows. -/
abbrev flatX (c : Dev nD) : Vec Ideal S8192x4096 .f32 := shapeCast S8192x4096 (arg0 m c) shapeCasts_S4x2048x4096_S8192x4096

abbrev xarr (c : Dev nD) : Vec Ideal S8192x4096 .bf16 := V m c main_v1
abbrev warr (c : Dev nD) : Vec Ideal S4096x4096 .i32 := V m c main_v2
abbrev sarr (c : Dev nD) : Vec Ideal S32x4096 .f32 := V m c main_v4
abbrev zarr (c : Dev nD) : Vec Ideal S32x4096 .f32 := V m c main_v6

theorem xarr_eq (c : Dev nD) : xarr m c = (truncf (F := Ideal) .bf16 (flatX m c) bitsLt_bf16_f32 : FVec Ideal S8192x4096 .bf16) := by
  show StableHlo.after hostOps0 (fun b => m (c, b)) (Proc.devRef .tc main_v1) = _
  after_results <;> rfl

theorem warr_eq (c : Dev nD) : warr m c = transpose S4096x4096 [1, 0] (arg1 m c) transposes_S4096x4096_S4096x4096_1_0 := by
  show StableHlo.after hostOps0 (fun b => m (c, b)) (Proc.devRef .tc main_v2) = _
  after_results <;> rfl

theorem sarr_eq (c : Dev nD) : sarr m c = shapeCast S32x4096
    (extractStridedSlice S32x4096x1 ![0, 0, 0] (arg2 m c) slices_S32x4096x2_S32x4096x1_0_0_0) shapeCasts_S32x4096x1_S32x4096 := by
  show StableHlo.after hostOps0 (fun b => m (c, b)) (Proc.devRef .tc main_v4) = _
  after_results <;> rfl

theorem zarr_eq (c : Dev nD) : zarr m c = shapeCast S32x4096
    (extractStridedSlice S32x4096x1 ![0, 0, 1] (arg2 m c) slices_S32x4096x2_S32x4096x1_0_0_1) shapeCasts_S32x4096x1_S32x4096 := by
  show StableHlo.after hostOps0 (fun b => m (c, b)) (Proc.devRef .tc main_v6) = _
  after_results <;> rfl

/-! ## The same at an index -/

theorem xarr_apply (c : Dev nD) (r : Fin 8192) (k : Fin 4096) : xarr m c (ix2 r k) = flatX m c (ix2 r k) := by
  rw [xarr_eq]; rfl

theorem warr_apply (c : Dev nD) (k o : Fin 4096) : warr m c (ix2 k o) = arg1 m c (ix2 o k) := by
  rw [warr_eq]
  exact transpose_ix2_apply (arg1 m c) _ k o

theorem sarr_apply (c : Dev nD) (g : Fin 32) (o : Fin 4096) : sarr m c (ix2 g o) = arg2 m c (ix3 g o (0 : Fin 2)) := by
  rw [sarr_eq]
  refine (shapeCast_apply _ _ (ix2 g o) (ix3 g o (0 : Fin 1)) (by
    rw [Shape.rowMajor_val_three, Shape.rowMajor_val_two]
    show (g.val * 4096 + o.val) * 1 + 0 = g.val * 4096 + o.val
    omega)).trans ?_
  exact extractStridedSlice_apply _ _ _ _ _ (fun a => match a with
    | ⟨0, _⟩ => by show g.val = 0 + g.val; omega
    | ⟨1, _⟩ => by show o.val = 0 + o.val; omega
    | ⟨2, _⟩ => by show 0 = 0 + 0; rfl)

theorem zarr_apply (c : Dev nD) (g : Fin 32) (o : Fin 4096) : zarr m c (ix2 g o) = arg2 m c (ix3 g o (1 : Fin 2)) := by
  rw [zarr_eq]
  refine (shapeCast_apply _ _ (ix2 g o) (ix3 g o (0 : Fin 1)) (by
    rw [Shape.rowMajor_val_three, Shape.rowMajor_val_two]
    show (g.val * 4096 + o.val) * 1 + 0 = g.val * 4096 + o.val
    omega)).trans ?_
  exact extractStridedSlice_apply _ _ _ _ _ (fun a => match a with
    | ⟨0, _⟩ => by show g.val = 0 + g.val; omega
    | ⟨1, _⟩ => by show o.val = 0 + o.val; omega
    | ⟨2, _⟩ => by show 1 = 1 + 0; rfl)

/-! ## The blocks a grid point stages -/

abbrev xblk (c : Dev nD) (t : Fin cfg0.N) : Vec Ideal S1024x1024 .bf16 := iblk m c 0 t
abbrev wblk (c : Dev nD) (t : Fin cfg0.N) : Vec Ideal S1024x1024 .i32 := iblk m c 1 t
abbrev sblk (c : Dev nD) (t : Fin cfg0.N) : Vec Ideal S8x1024 .f32 := iblk m c 2 t
abbrev zblk (c : Dev nD) (t : Fin cfg0.N) : Vec Ideal S8x1024 .f32 := iblk m c 3 t

/-- The block indices of the five windows at point `t`, decided over the grid. -/
theorem idx_facts : ∀ t : Fin cfg0.N,
    (win0_0.index t 0 = t.val / 16 ∧ win0_0.index t 1 = t.val % 4)
    ∧ (win0_1.index t 0 = t.val % 4 ∧ win0_1.index t 1 = t.val / 4 % 4)
    ∧ (win0_2.index t 0 = t.val % 4 ∧ win0_2.index t 1 = t.val / 4 % 4)
    ∧ (win0_3.index t 0 = t.val % 4 ∧ win0_3.index t 1 = t.val / 4 % 4)
    ∧ (win0_4.index t 0 = t.val / 16 ∧ win0_4.index t 1 = t.val / 4 % 4) :=
  (by decide +kernel : ∀ t : Fin grid0.N,
    (win0_0.index t 0 = t.val / 16 ∧ win0_0.index t 1 = t.val % 4)
    ∧ (win0_1.index t 0 = t.val % 4 ∧ win0_1.index t 1 = t.val / 4 % 4)
    ∧ (win0_2.index t 0 = t.val % 4 ∧ win0_2.index t 1 = t.val / 4 % 4)
    ∧ (win0_3.index t 0 = t.val % 4 ∧ win0_3.index t 1 = t.val / 4 % 4)
    ∧ (win0_4.index t 0 = t.val / 16 ∧ win0_4.index t 1 = t.val / 4 % 4))

theorem xblk_apply (c : Dev nD) (t : Fin cfg0.N) (p kk : Fin 1024) (r : Fin 8192) (k : Fin 4096)
    (hr : r.val = t.val / 16 * 1024 + p.val) (hk : k.val = t.val % 4 * 1024 + kk.val) :
    xblk m c t (ix2 p kk) = xarr m c (ix2 r k) := by
  have hi := (idx_facts t).1
  show ((cfg0.win 0).blk t).view.read (Elt Ideal) (V m c (Pipeline.arrRef spec0 0)) (ix2 p kk) = V m c main_v1 (ix2 r k)
  rw [View.read_apply]
  show V m c main_v1 _ = V m c main_v1 _
  congr 1
  funext a
  apply Fin.ext
  match a with
  | ⟨0, _⟩ => show win0_0.index t 0 * 1024 + 1 * p.val = r.val; rw [hi.1, hr]; omega
  | ⟨1, _⟩ => show win0_0.index t 1 * 1024 + 1 * kk.val = k.val; rw [hi.2, hk]; omega

theorem wblk_apply (c : Dev nD) (t : Fin cfg0.N) (kk q : Fin 1024) (k o : Fin 4096)
    (hk : k.val = t.val % 4 * 1024 + kk.val) (ho : o.val = t.val / 4 % 4 * 1024 + q.val) :
    wblk m c t (ix2 kk q) = warr m c (ix2 k o) := by
  have hi := (idx_facts t).2.1
  show ((cfg0.win 1).blk t).view.read (Elt Ideal) (V m c (Pipeline.arrRef spec0 1)) (ix2 kk q) = V m c main_v2 (ix2 k o)
  rw [View.read_apply]
  show V m c main_v2 _ = V m c main_v2 _
  congr 1
  funext a
  apply Fin.ext
  match a with
  | ⟨0, _⟩ => show win0_1.index t 0 * 1024 + 1 * kk.val = k.val; rw [hi.1, hk]; omega
  | ⟨1, _⟩ => show win0_1.index t 1 * 1024 + 1 * q.val = o.val; rw [hi.2, ho]; omega

theorem sblk_apply (c : Dev nD) (t : Fin cfg0.N) (g : Fin 8) (q : Fin 1024) (G : Fin 32) (o : Fin 4096)
    (hG : G.val = t.val % 4 * 8 + g.val) (ho : o.val = t.val / 4 % 4 * 1024 + q.val) :
    sblk m c t (ix2 g q) = sarr m c (ix2 G o) := by
  have hi := (idx_facts t).2.2.1
  show ((cfg0.win 2).blk t).view.read (Elt Ideal) (V m c (Pipeline.arrRef spec0 2)) (ix2 g q) = V m c main_v4 (ix2 G o)
  rw [View.read_apply]
  show V m c main_v4 _ = V m c main_v4 _
  congr 1
  funext a
  apply Fin.ext
  match a with
  | ⟨0, _⟩ => show win0_2.index t 0 * 8 + 1 * g.val = G.val; rw [hi.1, hG]; omega
  | ⟨1, _⟩ => show win0_2.index t 1 * 1024 + 1 * q.val = o.val; rw [hi.2, ho]; omega

theorem zblk_apply (c : Dev nD) (t : Fin cfg0.N) (g : Fin 8) (q : Fin 1024) (G : Fin 32) (o : Fin 4096)
    (hG : G.val = t.val % 4 * 8 + g.val) (ho : o.val = t.val / 4 % 4 * 1024 + q.val) :
    zblk m c t (ix2 g q) = zarr m c (ix2 G o) := by
  have hi := (idx_facts t).2.2.2.1
  show ((cfg0.win 3).blk t).view.read (Elt Ideal) (V m c (Pipeline.arrRef spec0 3)) (ix2 g q) = V m c main_v6 (ix2 G o)
  rw [View.read_apply]
  show V m c main_v6 _ = V m c main_v6 _
  congr 1
  funext a
  apply Fin.ext
  match a with
  | ⟨0, _⟩ => show win0_3.index t 0 * 8 + 1 * g.val = G.val; rw [hi.1, hG]; omega
  | ⟨1, _⟩ => show win0_3.index t 1 * 1024 + 1 * q.val = o.val; rw [hi.2, ho]; omega

end Cert.KernelIdeal.Acc

end
-- ==== Proof.Accum.lean ====
/-
  The accumulation across the reduction axis.

  At grid point `n` = (i, j, k) the output's staging buffer holds, at (p, q), the sum over the reduction blocks
  0 .. k of the sums over the 1024 input features inside each block of `X[1024 i + p, f] * W[f, 1024 j + q]`,
  `W` the dequantized weights: at k = 0 the body starts from the zero block, at k > 0 from what the point before
  (same i and j, reduction block k - 1) left. By induction on the point.
-/
import proofs.«171951_j1726576857544_1_alg».proof.Proof.Spec
import proofs.«171951_j1726576857544_1_alg».proof.Proof.Pieces
import proofs.«171951_j1726576857544_1_alg».proof.Proof.Payload
import proofs.«171951_j1726576857544_1_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- One term of the product: activation (r, f) times the dequantized weight (f, o); zero for `f` out of range. -/
def term (c : Dev nD) (r : Fin 8192) (o : Fin 4096) (f : ℕ) : EReal :=
  if hf : f < 4096 then flatX m c (ix2 r ⟨f, hf⟩) * Cert.Dequant.deq (arg1 m c) (arg2 m c) ⟨f, hf⟩ o else 0

/-- The array row and column under entry (p, q) of the block that point `n` works on. -/
def prow (n : ℕ) (p : Fin 1024) : Fin 8192 :=
  ⟨n / 16 % 8 * 1024 + p.val, by have := p.isLt; have := Nat.mod_lt (n / 16) (by decide : 0 < 8); omega⟩
def pcol (n : ℕ) (q : Fin 1024) : Fin 4096 :=
  ⟨n / 4 % 4 * 1024 + q.val, by have := q.isLt; have := Nat.mod_lt (n / 4) (by decide : 0 < 4); omega⟩

/-- One step at point `t`: the update over `prev` adds reduction block `t % 4`'s terms. -/
theorem step_apply (c : Dev nD) (t : Fin cfg0.N) (prev : Vec Ideal S1024x1024 .f32) (p q : Fin 1024) :
    k0_pay2 (F := Ideal) (wblk m c t) (sblk m c t) (zblk m c t) (xblk m c t) prev (ix2 p q)
      = prev (ix2 p q) + ∑ kk : Fin 1024, term m c (prow t.val p) (pcol t.val q) (t.val % 4 * 1024 + kk.val) := by
  have hN : t.val < 128 := lt_of_lt_of_eq t.isLt (show cfg0.N = 128 from N_0)
  rw [pay2_apply]
  refine congrArg (prev (ix2 p q) + ·) (Finset.sum_congr rfl fun kk _ => ?_)
  have hkk := kk.isLt
  have hf : t.val % 4 * 1024 + kk.val < 4096 := by omega
  have hG : t.val % 4 * 8 + kk.val / 128 < 32 := by omega
  rw [xblk_apply m c t p kk (prow t.val p) ⟨_, hf⟩ (by show t.val / 16 % 8 * 1024 + p.val = _; omega) rfl,
    wblk_apply m c t kk q ⟨_, hf⟩ (pcol t.val q) rfl rfl,
    sblk_apply m c t (rgrp kk) q ⟨_, hG⟩ (pcol t.val q) rfl rfl,
    zblk_apply m c t (rgrp kk) q ⟨_, hG⟩ (pcol t.val q) rfl rfl,
    xarr_apply, warr_apply, sarr_apply, zarr_apply]
  unfold term
  rw [dif_pos hf]
  unfold Cert.Dequant.deq
  have hg : Cert.Dequant.grp ⟨t.val % 4 * 1024 + kk.val, hf⟩ = ⟨t.val % 4 * 8 + kk.val / 128, hG⟩ :=
    Fin.ext (by show (t.val % 4 * 1024 + kk.val) / 128 = t.val % 4 * 8 + kk.val / 128; omega)
  rw [hg]

/-- A point that starts a reduction leaves the update over the zero block. -/
theorem outsAt_first (c : Dev nD) (t : Fin cfg0.N) (h0 : t.val % 4 = 0) :
    outsAt0 m c t.val t.isLt
      = k0_pay2 (F := Ideal) (wblk m c t) (sblk m c t) (zblk m c t) (xblk m c t) (k0_pay1 (F := Ideal)) := by
  rw [outsAt0_A m c t h0]
  exact out_A (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk m c 0 t) (iblk m c 1 t) (iblk m c 2 t) (iblk m c 3 t)

/-- A later point leaves the update over what the point before left. -/
theorem outsAt_later (c : Dev nD) (t : Fin cfg0.N) (h0 : ¬t.val % 4 = 0) :
    outsAt0 m c t.val t.isLt
      = k0_pay2 (F := Ideal) (wblk m c t) (sblk m c t) (zblk m c t) (xblk m c t)
          (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk m c 0 t) (iblk m c 1 t) (iblk m c 2 t) (iblk m c 3 t)
    (outsAt0 m c (t.val - 1) (Nat.lt_of_le_of_lt (Nat.sub_le _ _) t.isLt))

/-- The product accumulated after point `n`: reduction blocks 0 .. n % 4. -/
def upTo (c : Dev nD) (n : ℕ) (p q : Fin 1024) : EReal :=
  ∑ b ∈ Finset.range (n % 4 + 1), ∑ kk : Fin 1024, term m c (prow n p) (pcol n q) (b * 1024 + kk.val)

/-- What the output's staging buffer holds after point `n`. -/
theorem outsAt_apply (c : Dev nD) : ∀ (n : ℕ) (h : n < cfg0.N) (p q : Fin 1024),
    outsAt0 m c n h (ix2 p q) = upTo m c n p q
  | 0, h, p, q => by
    rw [outsAt_first m c ⟨0, h⟩ rfl, step_apply, pay1_apply, zero_add]
    unfold upTo
    rw [show (0 : ℕ) % 4 + 1 = 1 from rfl, Finset.sum_range_one]
    rfl
  | n + 1, h, p, q => by
    by_cases h0 : (n + 1) % 4 = 0
    · rw [outsAt_first m c ⟨n + 1, h⟩ h0, step_apply, pay1_apply, zero_add]
      unfold upTo
      show ∑ kk : Fin 1024, term m c (prow (n + 1) p) (pcol (n + 1) q) ((n + 1) % 4 * 1024 + kk.val) = _
      rw [h0, Finset.sum_range_one]
    · rw [outsAt_later m c ⟨n + 1, h⟩ h0, step_apply]
      show outsAt0 m c n _ (ix2 p q) + ∑ kk : Fin 1024, term m c (prow (n + 1) p) (pcol (n + 1) q) ((n + 1) % 4 * 1024 + kk.val) = _
      rw [outsAt_apply c n _ p q]
      unfold upTo
      have e : (n + 1) % 4 = n % 4 + 1 := by omega
      have er : prow (n + 1) p = prow n p := Fin.ext (by show (n + 1) / 16 % 8 * 1024 + p.val = n / 16 % 8 * 1024 + p.val; omega)
      have ec : pcol (n + 1) q = pcol n q := Fin.ext (by show (n + 1) / 4 % 4 * 1024 + q.val = n / 4 % 4 * 1024 + q.val; omega)
      rw [e, Finset.sum_range_succ (n := n % 4 + 1), er, ec]

end Cert.KernelIdeal.Acc

end
-- ==== Proof.Final.lean ====
/-
  The kernel's result.

  The output's staging buffer is written back when the reduction coordinate is the last (k = 3); by then it
  holds all four reduction blocks' terms, which together are the sum over all 4096 input features: block (i, j)
  of the product of the flattened activations with the dequantized weights. Every index (r, o) of the 8192 x 4096
  array lies in the block written back at the point (r / 1024, o / 1024, 3), so the array ends at that product,
  and the one operation after the region reshapes it to the result's shape.
-/
import proofs.«171951_j1726576857544_1_alg».proof.Proof.Accum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The product of the flattened activations with the dequantized weights, as contents of the output array. -/
abbrev out (c : Dev nD) : Buf (Elt Ideal) ((c : Thread nD τ).loc main_v7) :=
  Cert.Dequant.prod (flatX m c) (arg1 m c) (arg2 m c)

/-- All four reduction blocks' terms are the whole sum. -/
theorem upTo_last (c : Dev nD) (n : ℕ) (h3 : n % 4 = 3) (p q : Fin 1024) :
    upTo m c n p q = out m c (ix2 (prow n p) (pcol n q)) := by
  unfold upTo
  rw [h3, Cert.Dequant.sum_blocks (fun f => term m c (prow n p) (pcol n q) f)]
  show _ = ∑ k : Fin 4096, flatX m c (ix2 (prow n p) k) * Cert.Dequant.deq (arg1 m c) (arg2 m c) k (pcol n q)
  refine Finset.sum_congr rfl fun k _ => ?_
  unfold term
  rw [dif_pos k.isLt]

/-- What a point with the last reduction coordinate writes back is its block of the product. -/
theorem flushed_eq (c : Dev nD) (t : Fin cfg0.N) (hf : (cfg0.win 4).flush t = true) :
    (dats m 0 c).flushed 4 t = ((cfg0.win 4).blk t).view.read (Elt Ideal) (out m c) := by
  have h3 : t.val % 4 = 3 := (flush0_4 t).mp hf
  have hN : t.val < 128 := lt_of_lt_of_eq t.isLt (show cfg0.N = 128 from N_0)
  have hi := (idx_facts t).2.2.2.2
  show (cfg0.win 4).cut (grid0.coords t) ((dats m 0 c).after 4 t) = _
  rw [after0_4]
  funext y
  obtain ⟨p, q, rfl⟩ : ∃ (p q : Fin 1024), y = ix2 p q := ⟨y 0, y 1, eq_ix2 y⟩
  show outsAt0 m c t.val t.isLt (ix2 p q) = out m c (((cfg0.win 4).blk t).view.emb (ix2 p q))
  rw [outsAt_apply, upTo_last m c t.val h3]
  congr 1
  funext a
  apply Fin.ext
  match a with
  | ⟨0, _⟩ => show t.val / 16 % 8 * 1024 + p.val = win0_4.index t 0 * 1024 + 1 * p.val; rw [hi.1]; omega
  | ⟨1, _⟩ => show t.val / 4 % 4 * 1024 + q.val = win0_4.index t 1 * 1024 + 1 * q.val; rw [hi.2]; omega

/-- Every index of the output array lies in a block that is written back. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  have ht : (i 0).val / 1024 * 16 + (i 1).val / 1024 * 4 + 3 < cfg0.N := by rw [hN]; omega
  refine ⟨⟨_, ht⟩, (flush0_4 _).mpr (by show ((i 0).val / 1024 * 16 + (i 1).val / 1024 * 4 + 3) % 4 = 3; omega), ?_⟩
  have hi := (idx_facts ⟨_, ht⟩).2.2.2.2
  show i ∈ ((View.whole main_v7).slice (win0_4.rect ⟨_, ht⟩)).set
  rw [View.set_slice_whole, Rect.mem_set_unit]
  intro a
  match a with
  | ⟨0, _⟩ =>
    show win0_4.index ⟨_, ht⟩ 0 * 1024 ≤ (i 0).val ∧ (i 0).val < win0_4.index ⟨_, ht⟩ 0 * 1024 + 1024
    rw [hi.1]
    show ((i 0).val / 1024 * 16 + (i 1).val / 1024 * 4 + 3) / 16 * 1024 ≤ (i 0).val
      ∧ (i 0).val < ((i 0).val / 1024 * 16 + (i 1).val / 1024 * 4 + 3) / 16 * 1024 + 1024
    omega
  | ⟨1, _⟩ =>
    show win0_4.index ⟨_, ht⟩ 1 * 1024 ≤ (i 1).val ∧ (i 1).val < win0_4.index ⟨_, ht⟩ 1 * 1024 + 1024
    rw [hi.2]
    show ((i 0).val / 1024 * 16 + (i 1).val / 1024 * 4 + 3) / 4 % 4 * 1024 ≤ (i 1).val
      ∧ (i 1).val < ((i 0).val / 1024 * 16 + (i 1).val / 1024 * 4 + 3) / 4 % 4 * 1024 + 1024
    omega

/-- The output array after the region is the product. -/
theorem final_out (c : Dev nD) : (dats m 0 c).arrAt 4 cfg0.N = out m c :=
  (dats m 0 c).arrAt_eq_of_cover 4 (out m c) (flushed_eq m c) cover

/-- The result buffer: the product reshaped to the result's shape. -/
abbrev result (c : Dev nD) : Buf (Elt Ideal) ((c : Thread nD τ).loc main_v8) :=
  shapeCast S4x2048x4096 (out m c) shapeCasts_S8192x4096_S4x2048x4096

/-- The operation after the region reshapes the output array into the result. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  exact congrArg (fun v => shapeCast S4x2048x4096 v shapeCasts_S8192x4096_S4x2048x4096)
    ((Pipeline.withArrays_arr spec0 launch0.win.arr_inj c _ _ 4).trans (final_out m c))

/-- The kernel's run: the result buffer at the reshaped product, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefIs.lean ====
/-
  The reference computes the specification.

  The reference regroups the integer weights to (output feature, group, lane), converts, subtracts 8, multiplies
  by the scale and adds the zero point of (group, output feature) broadcast over the lanes, flattens back to
  (output feature, input feature) and transposes. Read at (k, o) that array is the dequantized weight of the
  specification: the composed index maps send (k, o) to weight entry (o, k) and to scale / zero-point entry
  (k / 128, o). Its product with the flattened activations is then the specification's product, term by term.
-/
import proofs.«171951_j1726576857544_1_alg».proof.Proof.Gen.ReferenceIdeal.Read
import proofs.«171951_j1726576857544_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The weight entry under (k, o) of the transposed, flattened, regrouped array is (o, k). -/
theorem weight_idx (k o : Fin 4096) : idx_main_v5 (idx_main_v17 (idx_main_v18 (ix2 k o))) = ix2 o k := by
  have hk := k.isLt; have ho := o.isLt
  funext a
  apply Fin.ext
  match a with
  | ⟨0, _⟩ => show ((((o.val * 4096 + k.val) / 4096) * 32 + ((o.val * 4096 + k.val) / 128 % 32)) * 128 + ((o.val * 4096 + k.val) % 128)) / 4096 = o.val; omega
  | ⟨1, _⟩ => show ((((o.val * 4096 + k.val) / 4096) * 32 + ((o.val * 4096 + k.val) / 128 % 32)) * 128 + ((o.val * 4096 + k.val) % 128)) % 4096 = k.val; omega

/-- The scale entry under (k, o) is (k / 128, o, 0). -/
theorem scale_idx (k o : Fin 4096) :
    idx_main_v1 (idx_main_v2 (idx_main_v9 (idx_main_v10 (idx_main_v11 (idx_main_v17 (idx_main_v18 (ix2 k o)))))))
      = ix3 (Cert.Dequant.grp k) o (0 : Fin 2) := by
  have hk := k.isLt; have ho := o.isLt
  funext a
  apply Fin.ext
  match a with
  | ⟨0, _⟩ => show (((o.val * 4096 + k.val) / 128 % 32) * 4096 + ((o.val * 4096 + k.val) / 4096)) / 4096 = k.val / 128; omega
  | ⟨1, _⟩ => show (((o.val * 4096 + k.val) / 128 % 32) * 4096 + ((o.val * 4096 + k.val) / 4096)) / 1 % 4096 = o.val; omega
  | ⟨2, _⟩ => rfl

/-- The zero-point entry under (k, o) is (k / 128, o, 1). -/
theorem zero_idx (k o : Fin 4096) :
    idx_main_v3 (idx_main_v4 (idx_main_v13 (idx_main_v14 (idx_main_v15 (idx_main_v17 (idx_main_v18 (ix2 k o)))))))
      = ix3 (Cert.Dequant.grp k) o (1 : Fin 2) := by
  have hk := k.isLt; have ho := o.isLt
  funext a
  apply Fin.ext
  match a with
  | ⟨0, _⟩ => show (((o.val * 4096 + k.val) / 128 % 32) * 4096 + ((o.val * 4096 + k.val) / 4096)) / 4096 = k.val / 128; omega
  | ⟨1, _⟩ => show (((o.val * 4096 + k.val) / 128 % 32) * 4096 + ((o.val * 4096 + k.val) / 4096)) / 1 % 4096 = o.val; omega
  | ⟨2, _⟩ => rfl

/-- The reference's weight operand at (k, o) is the dequantized weight. -/
theorem weight_apply (x1 : (⟨S4096x4096, .i32⟩ : BufTy).Contents (Elt Ideal)) (x2 : (⟨S32x4096x2, .f32⟩ : BufTy).Contents (Elt Ideal))
    (k o : Fin 4096) : val_main_v18 (F := Ideal) x1 x2 (ix2 k o) = Cert.Dequant.deq x1 x2 k o := by
  rw [val_main_v18_apply, val_main_v17_apply, val_main_v16_apply, val_main_v12_apply, val_main_v8_apply, val_main_v6_apply,
    val_main_v5_apply, val_main_v7_apply, val_main_cst_apply, val_main_v11_apply, val_main_v10_apply, val_main_v9_apply,
    val_main_v2_apply, val_main_v1_apply, val_main_v15_apply, val_main_v14_apply, val_main_v13_apply, val_main_v4_apply,
    val_main_v3_apply, weight_idx, scale_idx, zero_idx]
  rfl

/-- The reference's product is the specification's product of the flattened activations. -/
theorem prod_eq (x0 : (⟨S4x2048x4096, .f32⟩ : BufTy).Contents (Elt Ideal)) (x1 : (⟨S4096x4096, .i32⟩ : BufTy).Contents (Elt Ideal))
    (x2 : (⟨S32x4096x2, .f32⟩ : BufTy).Contents (Elt Ideal)) :
    val_main_v19 (F := Ideal) x0 x1 x2 = Cert.Dequant.prod (val_main_v0 (F := Ideal) x0) x1 x2 := by
  funext j
  obtain ⟨r, o, rfl⟩ : ∃ (r : Fin 8192) (o : Fin 4096), j = ix2 r o := ⟨j 0, j 1, eq_ix2 j⟩
  rw [val_main_v19_apply]
  show _ = ∑ k : Fin 4096, val_main_v0 (F := Ideal) x0 (ix2 r k) * Cert.Dequant.deq x1 x2 k o
  refine Finset.sum_congr rfl fun k _ => ?_
  have el : lidx_main_v19 (ix2 r o) k = ix2 r k := funext fun a => Fin.ext (by
    match a with
    | ⟨0, _⟩ => rfl
    | ⟨1, _⟩ => rfl)
  have er : ridx_main_v19 (ix2 r o) k = ix2 k o := funext fun a => Fin.ext (by
    match a with
    | ⟨0, _⟩ => rfl
    | ⟨1, _⟩ => rfl)
  rw [el, er, weight_apply]

end Cert.ReferenceIdeal.RefValue

end
-- ==== Proof.lean ====
/-
  A weight-only quantized linear layer: `y = x @ dequant(q, scales, zeros).T` over f32[4, 2048, 4096]
  activations, 4096 x 4096 integer weights and one (scale, zero point) pair per group of 128 input features
  and output feature.

  Both programs compute, at flattened row `r` and output feature `o`,
      sum over input features k of  x[r, k] * ((q[o, k] - 8) * scale[k / 128, o] + zero[k / 128, o]),
  and reshape the 8192 x 4096 product to [4, 2048, 4096] (Proof/Spec.lean).

  The reference does it with one contraction over all 4096 input features (Proof/RefIs.lean reads its
  operations at an index). The kernel tiles rows, output features and input features by 1024: at each grid
  point it dequantizes a 1024 x 1024 weight block group by group, multiplies the activation block by it on the
  matrix unit and adds the product into the output block, which it zeroes at the first reduction step and writes
  back after the last (Proof/Pieces.lean, Payload.lean, Blocks.lean, Accum.lean, Final.lean). Over the extended
  reals narrowing to bf16 is the identity and addition is commutative and associative, so the four partial
  products over 1024 input features each add up to the one sum over 4096 whatever the inputs: the precondition
  is not used.

  The frames of the kernel and of its idealization are the generated ones; the reference's frame is its
  generated run with the result dropped; the idealization rewrote nothing.
-/
import proofs.«171951_j1726576857544_1_alg».proof.Defs
import proofs.«171951_j1726576857544_1_alg».proof.Proof.Gen.Kernel
import proofs.«171951_j1726576857544_1_alg».proof.Proof.Gen.Kernel.Frame
import proofs.«171951_j1726576857544_1_alg».proof.Proof.Gen.KernelIdeal
import proofs.«171951_j1726576857544_1_alg».proof.Proof.Gen.KernelIdeal.Frame
import proofs.«171951_j1726576857544_1_alg».proof.Proof.Gen.ReferenceIdeal
import proofs.«171951_j1726576857544_1_alg».proof.Proof.Gen.ReferenceIdeal.Run
import proofs.«171951_j1726576857544_1_alg».proof.Proof.Gen.ReferenceIdeal.Read
import proofs.«171951_j1726576857544_1_alg».proof.Proof.Gen.Pre_finite_inputs
import proofs.«171951_j1726576857544_1_alg».proof.Proof.Final
import proofs.«171951_j1726576857544_1_alg».proof.Proof.RefIs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reshaped product of the flattened activations with the dequantized weights, of
    arguments that agree. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  unfold Cert.ReferenceIdeal.Read.val_main_v20
  rw [Cert.ReferenceIdeal.RefValue.prod_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
